-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 96
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«105747_j12189117186811_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.KernelBlocks0.lean ====
/-
  Region 0 of the kernel program computes x · W1 block of rows by block of rows: grid point t loads rows
  5000 t … 5000 t + 4999 of the left operand and the whole right operand, multiplies them (the change of float format is
  the identity on the extended reals, the accumulator is zero) and writes the product back as rows 5000 t … 5000 t + 4999 of
  the output. A row block of a matrix product is the product of the row block, and the twenty blocks tile the 100000
  rows, so the output array ends holding the product of the two arrays the region was entered with.
-/
import proofs.«105747_j12189117186811_1_alg».proof.Proof.Gen.KernelIdeal.Frame
import proofs.«105747_j12189117186811_1_alg».proof.Proof.LibMatProd
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks0
open Cert.KernelIdeal Cert.KernelIdeal.Gen Idealize.ShloMosaic Idealize.ShloMosaic.TcCoe Idealize.ShloMosaic.ValueIdx Idealize.ShloMosaic.Pipeline
open Cert.MatProd

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's block and the output block of point t are row block t, column block 0;
    the weight block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value is the product of its two loaded blocks: the change of float format is the identity on the
    extended reals and the accumulator is zero. -/
theorem pay_eq (x0 : Vec Ideal S5000x128 .f32) (x1 : Vec Ideal S128x128 .f32) :
    k0_pay1 (F := Ideal) x0 x1 = matProd x0 x1 := by
  unfold k0_pay1
  exact matmulZero_eq dot_S5000x128_S128x128_S5000x128_1_0_0_1_n_n_wf none x0 x1

/-- One entry of a block's product is the entry of the whole product in the row the block's row comes from, when the
    block's row is that row of A and the second block is all of B. -/
theorem point_eq (A : (⟨2, ![100000, 128]⟩ : Shape).Idx → EReal) (B : (⟨2, ![128, 128]⟩ : Shape).Idx → EReal)
    (x0 : Vec Ideal S5000x128 .f32) (x1 : Vec Ideal S128x128 .f32) (r : Fin 100000) (p : Fin 5000) (q : Fin 128)
    (h0 : ∀ k : Fin 128, x0 (ix2 p k) = A (ix2 r k)) (h1 : ∀ k : Fin 128, x1 (ix2 k q) = B (ix2 k q)) :
    k0_pay1 (F := Ideal) x0 x1 (ix2 p q) = matProd A B (ix2 r q) := by
  rw [pay_eq, matProd_ix2, matProd_ix2]
  exact Finset.sum_congr rfl fun k _ => by rw [h0 k, h1 k]

/-- What point t writes back is block t of the product of the two argument arrays as the region finds them. -/
theorem flushed_eq (c : Dev nD) (t : Fin cfg0.N) :
    (dat0 V c).flushed 2 t = ((cfg0.win 2).blk t).view.read (Elt Ideal) (matProd (m := 100000) (k := 128) (n := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨e00, e01, e10, e11, e20, e21⟩ := idx_facts t
  show k0_pay1 (F := Ideal) (iblk0 V c 0 t) (iblk0 V c 1 t) j
    = matProd (m := 100000) (k := 128) (n := 128) (V c main_arg0) (V c main_arg2) (((cfg0.win 2).blk t).view.emb j)
  have hq : (((cfg0.win 2).blk t).view.emb j) 1 = j 1 := Fin.ext (by
    show win0_2.index t (1 : Fin 2) * 128 + 1 * (j 1).val = (j 1).val; omega)
  calc k0_pay1 (F := Ideal) (iblk0 V c 0 t) (iblk0 V c 1 t) j
      = k0_pay1 (F := Ideal) (iblk0 V c 0 t) (iblk0 V c 1 t) (ix2 (j 0) (j 1)) := congrArg _ (eq_ix2 (n0 := 5000) (n1 := 128) j)
    _ = matProd (m := 100000) (k := 128) (n := 128) (V c main_arg0) (V c main_arg2) (ix2 ((((cfg0.win 2).blk t).view.emb j) 0) (j 1)) := by
        refine point_eq (V c main_arg0) (V c main_arg2) (iblk0 V c 0 t) (iblk0 V c 1 t) ((((cfg0.win 2).blk t).view.emb j) 0) (j 0) (j 1) (fun k => ?_) (fun k => ?_)
        · show V c main_arg0 (((cfg0.win 0).blk t).view.emb (ix2 (j 0) k)) = _
          refine congrArg _ ?_
          funext a; apply Fin.ext
          match a with
          | ⟨0, _⟩ => show win0_0.index t (0 : Fin 2) * 5000 + 1 * (j 0).val = win0_2.index t (0 : Fin 2) * 5000 + 1 * (j 0).val; omega
          | ⟨1, _⟩ => show win0_0.index t (1 : Fin 2) * 128 + 1 * k.val = k.val; omega
        · show V c main_arg2 (((cfg0.win 1).blk t).view.emb (ix2 k (j 1))) = _
          refine congrArg _ ?_
          funext a; apply Fin.ext
          match a with
          | ⟨0, _⟩ => show win0_1.index t (0 : Fin 2) * 128 + 1 * k.val = k.val; omega
          | ⟨1, _⟩ => show win0_1.index t (1 : Fin 2) * 128 + 1 * (j 1).val = (j 1).val; omega
    _ = matProd (m := 100000) (k := 128) (n := 128) (V c main_arg0) (V c main_arg2) (((cfg0.win 2).blk t).view.emb j) := by
        refine congrArg _ ?_
        rw [← hq]
        exact (eq_ix2 (n0 := 100000) (n1 := 128) _).symm

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every row lies in the block of the point numbered row / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by have := N_0; show _ < grid0.N; omega⟩, flush0_2 _, ?_⟩
  rw [mem_blk]
  obtain ⟨-, -, -, -, e20, e21⟩ := idx_facts ⟨(i 0).val / 5000, by have := N_0; show _ < grid0.N; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e21]; omega

/-- The first projection's array after its region: the product of the two argument arrays as the region finds them. -/
theorem final (c : Dev nD) :
    (dat0 V c).arrAt 2 cfg0.N = matProd (m := 100000) (k := 128) (n := 128) (V c main_arg0) (V c main_arg2) :=
  (dat0 V c).arrAt_eq_of_cover 2 _ (fun t _ => flushed_eq V c t) cover

end Cert.KernelIdeal.Blocks0

end
-- ==== Proof.KernelBlocks1.lean ====
/-
  Region 1 of the kernel program computes a · W2 (a the first layer's output) block of rows by block of rows: grid point t loads rows
  5000 t … 5000 t + 4999 of the left operand and the whole right operand, multiplies them (the change of float format is
  the identity on the extended reals, the accumulator is zero) and writes the product back as rows 5000 t … 5000 t + 4999 of
  the output. A row block of a matrix product is the product of the row block, and the twenty blocks tile the 100000
  rows, so the output array ends holding the product of the two arrays the region was entered with.
-/
import proofs.«105747_j12189117186811_1_alg».proof.Proof.Gen.KernelIdeal.Frame
import proofs.«105747_j12189117186811_1_alg».proof.Proof.LibMatProd
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks1
open Cert.KernelIdeal Cert.KernelIdeal.Gen Idealize.ShloMosaic Idealize.ShloMosaic.TcCoe Idealize.ShloMosaic.ValueIdx Idealize.ShloMosaic.Pipeline
open Cert.MatProd

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's block and the output block of point t are row block t, column block 0;
    the weight block is always block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value is the product of its two loaded blocks: the change of float format is the identity on the
    extended reals and the accumulator is zero. -/
theorem pay_eq (x0 : Vec Ideal S5000x128 .f32) (x1 : Vec Ideal S128x64 .f32) :
    k1_pay1 (F := Ideal) x0 x1 = matProd x0 x1 := by
  unfold k1_pay1
  rw [shapeCast_self]
  exact matmulZero_eq dot_S5000x128_S128x64_S5000x64_1_0_0_1_n_n_wf none x0 x1

/-- One entry of a block's product is the entry of the whole product in the row the block's row comes from, when the
    block's row is that row of A and the second block is all of B. -/
theorem point_eq (A : (⟨2, ![100000, 128]⟩ : Shape).Idx → EReal) (B : (⟨2, ![128, 64]⟩ : Shape).Idx → EReal)
    (x0 : Vec Ideal S5000x128 .f32) (x1 : Vec Ideal S128x64 .f32) (r : Fin 100000) (p : Fin 5000) (q : Fin 64)
    (h0 : ∀ k : Fin 128, x0 (ix2 p k) = A (ix2 r k)) (h1 : ∀ k : Fin 128, x1 (ix2 k q) = B (ix2 k q)) :
    k1_pay1 (F := Ideal) x0 x1 (ix2 p q) = matProd A B (ix2 r q) := by
  rw [pay_eq, matProd_ix2, matProd_ix2]
  exact Finset.sum_congr rfl fun k _ => by rw [h0 k, h1 k]

/-- What point t writes back is block t of the product of the two argument arrays as the region finds them. -/
theorem flushed_eq (c : Dev nD) (t : Fin cfg1.N) :
    (dat1 V c).flushed 2 t = ((cfg1.win 2).blk t).view.read (Elt Ideal) (matProd (m := 100000) (k := 128) (n := 64) (V c main_v52) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  funext j
  obtain ⟨e00, e01, e10, e11, e20, e21⟩ := idx_facts t
  show k1_pay1 (F := Ideal) (iblk1 V c 0 t) (iblk1 V c 1 t) j
    = matProd (m := 100000) (k := 128) (n := 64) (V c main_v52) (V c main_arg4) (((cfg1.win 2).blk t).view.emb j)
  have hq : (((cfg1.win 2).blk t).view.emb j) 1 = j 1 := Fin.ext (by
    show win1_2.index t (1 : Fin 2) * 64 + 1 * (j 1).val = (j 1).val; omega)
  calc k1_pay1 (F := Ideal) (iblk1 V c 0 t) (iblk1 V c 1 t) j
      = k1_pay1 (F := Ideal) (iblk1 V c 0 t) (iblk1 V c 1 t) (ix2 (j 0) (j 1)) := congrArg _ (eq_ix2 (n0 := 5000) (n1 := 64) j)
    _ = matProd (m := 100000) (k := 128) (n := 64) (V c main_v52) (V c main_arg4) (ix2 ((((cfg1.win 2).blk t).view.emb j) 0) (j 1)) := by
        refine point_eq (V c main_v52) (V c main_arg4) (iblk1 V c 0 t) (iblk1 V c 1 t) ((((cfg1.win 2).blk t).view.emb j) 0) (j 0) (j 1) (fun k => ?_) (fun k => ?_)
        · show V c main_v52 (((cfg1.win 0).blk t).view.emb (ix2 (j 0) k)) = _
          refine congrArg _ ?_
          funext a; apply Fin.ext
          match a with
          | ⟨0, _⟩ => show win1_0.index t (0 : Fin 2) * 5000 + 1 * (j 0).val = win1_2.index t (0 : Fin 2) * 5000 + 1 * (j 0).val; omega
          | ⟨1, _⟩ => show win1_0.index t (1 : Fin 2) * 128 + 1 * k.val = k.val; omega
        · show V c main_arg4 (((cfg1.win 1).blk t).view.emb (ix2 k (j 1))) = _
          refine congrArg _ ?_
          funext a; apply Fin.ext
          match a with
          | ⟨0, _⟩ => show win1_1.index t (0 : Fin 2) * 128 + 1 * k.val = k.val; omega
          | ⟨1, _⟩ => show win1_1.index t (1 : Fin 2) * 64 + 1 * (j 1).val = (j 1).val; omega
    _ = matProd (m := 100000) (k := 128) (n := 64) (V c main_v52) (V c main_arg4) (((cfg1.win 2).blk t).view.emb j) := by
        refine congrArg _ ?_
        rw [← hq]
        exact (eq_ix2 (n0 := 100000) (n1 := 64) _).symm

/-- An index of the array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v53).slice (win1_2.rect t)).set ↔ _
  rw [View.set_slice_whole, Rect.mem_set_unit]
  exact Iff.rfl

/-- Every row lies in the block of the point numbered row / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  refine ⟨⟨(i 0).val / 5000, by have := N_1; show _ < grid1.N; omega⟩, flush1_2 _, ?_⟩
  rw [mem_blk]
  obtain ⟨-, -, -, -, e20, e21⟩ := idx_facts ⟨(i 0).val / 5000, by have := N_1; show _ < grid1.N; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e21]; omega

/-- The second projection's array after its region: the product of the two argument arrays as the region finds them. -/
theorem final (c : Dev nD) :
    (dat1 V c).arrAt 2 cfg1.N = matProd (m := 100000) (k := 128) (n := 64) (V c main_v52) (V c main_arg4) :=
  (dat1 V c).arrAt_eq_of_cover 2 _ (fun t _ => flushed_eq V c t) cover

end Cert.KernelIdeal.Blocks1

end
-- ==== Proof.RefStages.lean ====
/-
  The stages of the two-layer graph convolution, as functions of arrays: the edge list's source and target columns
  with the self loops appended, the symmetric normalisation  d(src)^(-1/2) · d(dst)^(-1/2)  (d the in-degree with self
  loops, 0 where the degree is 0), and one convolution layer  out[i] = Σ_{e : dst e = i} h[src e] · norm e + b
  (the first followed by max(·, 0)).  Each is the composition of host operations that both programs apply, written once,
  so that the two programs' results are the same composition around their two matrix products.
-/
import proofs.«105747_j12189117186811_1_alg».proof.ReferenceIdeal

noncomputable section

namespace Cert.ReferenceIdeal.Stages

open Cert.ReferenceIdeal Idealize.ShloMosaic Idealize.ShloMosaic.TcCoe

variable {F : FTy → Type} [FloatOps F] [Facts]
open Facts₀ Facts

/-- Row 0 of the edge list, then the nodes 0 … 99999 (the self loops' sources). -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list, then the nodes 0 … 99999 (the self loops' targets). -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node index counts from the end: v + 100000 where v < 0. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The degree of every node: a one scattered to each edge's target. -/
def degOf (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (wrapIdx (F := F) d)) (broadcastInDim S1700000 ![] bcast_S_S1700000 (constant S_ .f32 0x3F800000#32))

/-- deg^(-1/2) where the degree is positive, 0 elsewhere. -/
def dinvOf (d : (⟨S1700000, .i32⟩ : BufTy).Contents (Elt F)) : (⟨S100000, .f32⟩ : BufTy).Contents (Elt F) :=
  select (cmpf (F := F) .ogt (degOf d) (broadcastInDim S100000 ![] bcast_S_S100000 (constant S_ .f32 0x00000000#32))) (Host.rsqrt (degOf d)) (broadcastInDim S100000 ![] bcast_S_S100000 (id (constant S_ .f32 0x00000000#32)))

/-- The edge weights  dinv[src] · dinv[dst]. -/
def normOf (s d : (⟨S1700000, .i32⟩ : BufTy).Contents (Elt F)) : (⟨S1700000, .f32⟩ : BufTy).Contents (Elt F) :=
  mulf (Host.gather gather_S100000_S1700000x1_S1700000_n_0_n_n_0_1_1 (dinvOf d) (broadcastInDim S1700000x1 ![0] bcast_S1700000_S1700000x1_0 (wrapIdx (F := F) s))) (Host.gather gather_S100000_S1700000x1_S1700000_n_0_n_n_0_1_1 (dinvOf d) (broadcastInDim S1700000x1 ![0] bcast_S1700000_S1700000x1_0 (wrapIdx (F := F) d)))

/-- The first layer after its projection h = x · W1: gather the sources' rows, weigh them, sum them into the targets'
    rows, add the bias, and clamp below at 0. -/
def layer1 (h : (⟨S100000x128, .f32⟩ : BufTy).Contents (Elt F)) (s d : (⟨S1700000, .i32⟩ : BufTy).Contents (Elt F))
    (n : (⟨S1700000, .f32⟩ : BufTy).Contents (Elt F)) (b : (⟨S128, .f32⟩ : BufTy).Contents (Elt F)) : (⟨S100000x128, .f32⟩ : BufTy).Contents (Elt F) :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrapIdx (F := F) s))) (broadcastInDim S1700000x128 ![0, 1] bcast_S1700000x1_S1700000x128_0_1 (broadcastInDim S1700000x1 ![0] bcast_S1700000_S1700000x1_0 n)))) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The second layer after its projection h = a · W2: the same aggregation and bias, no clamp. -/
def layer2 (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrapIdx (F := F) s))) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- The two projections as the reference computes them: whole matrix products. -/
def proj1 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w
def proj2 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- The whole network as one function of the six inputs. -/
def net (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S100000x64, .f32⟩ : BufTy).Contents (Elt F) :=
  layer2 (proj2 (layer1 (proj1 x w1) (srcOf e) (dstOf e) (normOf (srcOf e) (dstOf e)) b1) w2) (srcOf e) (dstOf e) (normOf (srcOf e) (dstOf e)) b2

end Cert.ReferenceIdeal.Stages

end
-- ==== Proof.RefProj.lean ====
/-
  The reference's two projections are whole matrix products: at the extended reals the host's dot_general is its
  contraction sum with no accumulator, Σ_c x(a, c) · w(c, b).
-/
import proofs.«105747_j12189117186811_1_alg».proof.Proof.RefStages
import proofs.«105747_j12189117186811_1_alg».proof.Proof.LibMatProd
import proofs.«105747_j12189117186811_1_alg».proof.Proof.Gen.ReferenceIdeal

noncomputable section

namespace Cert.ReferenceIdeal.Proj

open Cert.ReferenceIdeal Cert.ReferenceIdeal.Stages Cert.MatProd Idealize.ShloMosaic

theorem proj1_eq (x : FVec Ideal S100000x128 .f32) (w : FVec Ideal S128x128 .f32) :
    proj1 (F := Ideal) x w = matProd (m := 100000) (k := 128) (n := 128) x w := by
  unfold proj1
  exact hostDot_eq Cert.ReferenceIdeal.Gen.dot_S100000x128_S128x128_S100000x128_1_0_0_1_n_n_wf none x w

theorem proj2_eq (x : FVec Ideal S100000x128 .f32) (w : FVec Ideal S128x64 .f32) :
    proj2 (F := Ideal) x w = matProd (m := 100000) (k := 128) (n := 64) x w := by
  unfold proj2
  exact hostDot_eq Cert.ReferenceIdeal.Gen.dot_S100000x128_S128x64_S100000x64_1_0_0_1_n_n_wf none x w

end Cert.ReferenceIdeal.Proj

end
-- ==== Proof.KernelFold.lean ====
/-
  The kernel program's result as the network of the six inputs. Its run passes through eight boundaries: three
  stretches of host operations (the edge columns; the degrees, their inverse square roots and the edge weights), the
  first projection's region, two stretches (the first layer's aggregation, bias and clamp), the second projection's
  region, and a last stretch (the second layer's aggregation and bias). Each stretch is read as the stage it computes
  of the buffers it finds; each region's output array is the matrix product of the arrays it is entered with; a
  buffer a stretch or a region does not write keeps its contents. Composed from the launch memory, the result buffer
  holds the network's value.
-/
import proofs.«105747_j12189117186811_1_alg».proof.Proof.Gen.KernelIdeal.Frame
import proofs.«105747_j12189117186811_1_alg».proof.Proof.KernelBlocks0
import proofs.«105747_j12189117186811_1_alg».proof.Proof.KernelBlocks1
import proofs.«105747_j12189117186811_1_alg».proof.Proof.RefStages
import proofs.«105747_j12189117186811_1_alg».proof.Proof.RefProj
import Idealize.ShloMosaic.Lib.StableHlo.Run
import Idealize.ShloMosaic.Lib.Pipeline.Frame

set_option maxRecDepth 16384

noncomputable section

namespace Cert.KernelIdeal.Fold

open Cert.KernelIdeal Cert.KernelIdeal.Gen Idealize.ShloMosaic Idealize.ShloMosaic.TcCoe Idealize.ShloMosaic.StableHlo
open Cert.ReferenceIdeal.Stages Cert.MatProd

section AnyFloats

variable {F : FTy → Type} [FloatOps F]
variable (m : (ℓ : Loc nD τ sig) → Buf (Elt F) ℓ) (ρ : Dev nD → PrngReg) (c : Dev nD)

/-! ## Before the first region -/

/-- The first stretch's first seven operations: the edge columns with the self loops appended. -/
abbrev kEdge : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The rest of the first stretch: the degrees, the comparison with zero and the inverse square root. -/
abbrev kDeg : List (HloOp τ sig (Elt F)) :=
  [ StableHlo.nullary main_cst (constant S_ .f32 0x00000000#32),
    StableHlo.unary main_cst main_v7 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v8 (broadcastInDim S1700000 ![] bcast_S_S1700000 : (⟨S_, .i32⟩ : BufTy).Contents (Elt F) → (⟨S1700000, .i32⟩ : BufTy).Contents (Elt F)),
    StableHlo.binary main_v6 main_v8 main_v9 (cmpi .slt : (⟨S1700000, .i32⟩ : BufTy).Contents (Elt F) → (⟨S1700000, .i32⟩ : BufTy).Contents (Elt F) → (⟨S1700000, .i1⟩ : BufTy).Contents (Elt F)),
    StableHlo.nullary main_c_0 (constantI S_ 32 100000#32),
    StableHlo.unary main_c_0 main_v10 (broadcastInDim S1700000 ![] bcast_S_S1700000 : (⟨S_, .i32⟩ : BufTy).Contents (Elt F) → (⟨S1700000, .i32⟩ : BufTy).Contents (Elt F)),
    StableHlo.binary main_v6 main_v10 main_v11 (addi : (⟨S1700000, .i32⟩ : BufTy).Contents (Elt F) → (⟨S1700000, .i32⟩ : BufTy).Contents (Elt F) → (⟨S1700000, .i32⟩ : BufTy).Contents (Elt F)),
    StableHlo.ternary main_v9 main_v11 main_v6 main_v12 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v12 main_v13 (broadcastInDim S1700000x1 ![0] bcast_S1700000_S1700000x1_0 : (⟨S1700000, .i32⟩ : BufTy).Contents (Elt F) → (⟨S1700000x1, .i32⟩ : BufTy).Contents (Elt F)),
    StableHlo.nullary main_cst_1 (constant S_ .f32 0x3F800000#32),
    StableHlo.unary main_cst_1 main_v14 (broadcastInDim S1700000 ![] bcast_S_S1700000 : (⟨S_, .f32⟩ : BufTy).Contents (Elt F) → (⟨S1700000, .f32⟩ : BufTy).Contents (Elt F)),
    StableHlo.ternary main_v7 main_v13 main_v14 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_2 (constant S_ .f32 0x00000000#32),
    StableHlo.unary main_cst_2 main_v16 (broadcastInDim S100000 ![] bcast_S_S100000 : (⟨S_, .f32⟩ : BufTy).Contents (Elt F) → (⟨S100000, .f32⟩ : BufTy).Contents (Elt F)),
    StableHlo.binary main_v15 main_v16 main_v17 (cmpf .ogt : (⟨S100000, .f32⟩ : BufTy).Contents (Elt F) → (⟨S100000, .f32⟩ : BufTy).Contents (Elt F) → (⟨S100000, .i1⟩ : BufTy).Contents (Elt F)),
    StableHlo.unary main_v15 main_v18 (Host.rsqrt : (⟨S100000, .f32⟩ : BufTy).Contents (Elt F) → (⟨S100000, .f32⟩ : BufTy).Contents (Elt F)),
    StableHlo.nullary main_cst_3 (constant S_ .f32 0x00000000#32) ]

theorem hostOps0_cut : (hostOps0 : List (HloOp τ sig (Elt F))) = kEdge ++ kDeg := rfl

/-- The buffer contents once the edge columns are computed. -/
def WE (c : Dev nD) : Valuation τ sig (Elt F) := StableHlo.after kEdge (W0 m ρ c)

theorem WE_src : WE m ρ c (Proc.devRef .tc main_v3) = srcOf (F := F) (m ((c : Thread nD τ).loc main_arg1)) := by
  unfold WE; after_results <;> rfl
theorem WE_dst : WE m ρ c (Proc.devRef .tc main_v6) = dstOf (F := F) (m ((c : Thread nD τ).loc main_arg1)) := by
  unfold WE; after_results <;> rfl
theorem WE_arg0 : WE m ρ c (Proc.devRef .tc main_arg0) = m ((c : Thread nD τ).loc main_arg0) := by
  unfold WE; after_results <;> rfl
theorem WE_arg2 : WE m ρ c (Proc.devRef .tc main_arg2) = m ((c : Thread nD τ).loc main_arg2) := by
  unfold WE; after_results <;> rfl
theorem WE_arg3 : WE m ρ c (Proc.devRef .tc main_arg3) = m ((c : Thread nD τ).loc main_arg3) := by
  unfold WE; after_results <;> rfl
theorem WE_arg4 : WE m ρ c (Proc.devRef .tc main_arg4) = m ((c : Thread nD τ).loc main_arg4) := by
  unfold WE; after_results <;> rfl
theorem WE_arg5 : WE m ρ c (Proc.devRef .tc main_arg5) = m ((c : Thread nD τ).loc main_arg5) := by
  unfold WE; after_results <;> rfl

theorem W3_cut : W3 m ρ c = StableHlo.after hostOps0_2 (StableHlo.after hostOps0_1 (StableHlo.after kDeg (WE m ρ c))) := by
  show StableHlo.after hostOps0_2 (StableHlo.after hostOps0_1 (StableHlo.after hostOps0 (W0 m ρ c))) = _
  rw [hostOps0_cut, StableHlo.after_append]
  rfl

set_option maxHeartbeats 2000000 in
theorem W3_norm : W3 m ρ c (Proc.devRef .tc main_v34) = normOf (F := F) (WE m ρ c (Proc.devRef .tc main_v3)) (WE m ρ c (Proc.devRef .tc main_v6)) := by
  rw [W3_cut]; after_results_simp <;> rfl
theorem W3_keep_v3 : W3 m ρ c (Proc.devRef .tc main_v3) = WE m ρ c (Proc.devRef .tc main_v3) := by
  rw [W3_cut]; after_results_simp <;> rfl
theorem W3_keep_v6 : W3 m ρ c (Proc.devRef .tc main_v6) = WE m ρ c (Proc.devRef .tc main_v6) := by
  rw [W3_cut]; after_results_simp <;> rfl
theorem W3_keep_arg0 : W3 m ρ c (Proc.devRef .tc main_arg0) = WE m ρ c (Proc.devRef .tc main_arg0) := by
  rw [W3_cut]; after_results_simp <;> rfl
theorem W3_keep_arg2 : W3 m ρ c (Proc.devRef .tc main_arg2) = WE m ρ c (Proc.devRef .tc main_arg2) := by
  rw [W3_cut]; after_results_simp <;> rfl
theorem W3_keep_arg3 : W3 m ρ c (Proc.devRef .tc main_arg3) = WE m ρ c (Proc.devRef .tc main_arg3) := by
  rw [W3_cut]; after_results_simp <;> rfl
theorem W3_keep_arg4 : W3 m ρ c (Proc.devRef .tc main_arg4) = WE m ρ c (Proc.devRef .tc main_arg4) := by
  rw [W3_cut]; after_results_simp <;> rfl
theorem W3_keep_arg5 : W3 m ρ c (Proc.devRef .tc main_arg5) = WE m ρ c (Proc.devRef .tc main_arg5) := by
  rw [W3_cut]; after_results_simp <;> rfl

/-! ## Between the regions: the first layer -/

set_option maxHeartbeats 2000000 in
theorem W6_layer : W6 m ρ c (Proc.devRef .tc main_v52)
    = layer1 (F := F) (W4 m ρ c (Proc.devRef .tc main_v35)) (W4 m ρ c (Proc.devRef .tc main_v3)) (W4 m ρ c (Proc.devRef .tc main_v6))
        (W4 m ρ c (Proc.devRef .tc main_v34)) (W4 m ρ c (Proc.devRef .tc main_arg3)) := by
  show StableHlo.after hostOps1_1 (StableHlo.after hostOps1 (W4 m ρ c)) (Proc.devRef .tc main_v52) = _
  after_results_simp <;> rfl
theorem W6_keep_v3 : W6 m ρ c (Proc.devRef .tc main_v3) = W4 m ρ c (Proc.devRef .tc main_v3) := by
  show StableHlo.after hostOps1_1 (StableHlo.after hostOps1 (W4 m ρ c)) (Proc.devRef .tc main_v3) = _
  after_results_simp <;> rfl
theorem W6_keep_v6 : W6 m ρ c (Proc.devRef .tc main_v6) = W4 m ρ c (Proc.devRef .tc main_v6) := by
  show StableHlo.after hostOps1_1 (StableHlo.after hostOps1 (W4 m ρ c)) (Proc.devRef .tc main_v6) = _
  after_results_simp <;> rfl
theorem W6_keep_v34 : W6 m ρ c (Proc.devRef .tc main_v34) = W4 m ρ c (Proc.devRef .tc main_v34) := by
  show StableHlo.after hostOps1_1 (StableHlo.after hostOps1 (W4 m ρ c)) (Proc.devRef .tc main_v34) = _
  after_results_simp <;> rfl
theorem W6_keep_arg4 : W6 m ρ c (Proc.devRef .tc main_arg4) = W4 m ρ c (Proc.devRef .tc main_arg4) := by
  show StableHlo.after hostOps1_1 (StableHlo.after hostOps1 (W4 m ρ c)) (Proc.devRef .tc main_arg4) = _
  after_results_simp <;> rfl
theorem W6_keep_arg5 : W6 m ρ c (Proc.devRef .tc main_arg5) = W4 m ρ c (Proc.devRef .tc main_arg5) := by
  show StableHlo.after hostOps1_1 (StableHlo.after hostOps1 (W4 m ρ c)) (Proc.devRef .tc main_arg5) = _
  after_results_simp <;> rfl

/-! ## After the second region: the second layer -/

set_option maxHeartbeats 2000000 in
theorem W8_layer : W8 m ρ c (Proc.devRef .tc main_v69)
    = layer2 (F := F) (W7 m ρ c (Proc.devRef .tc main_v53)) (W7 m ρ c (Proc.devRef .tc main_v3)) (W7 m ρ c (Proc.devRef .tc main_v6))
        (W7 m ρ c (Proc.devRef .tc main_v34)) (W7 m ρ c (Proc.devRef .tc main_arg5)) := by
  show StableHlo.after hostOps2 (W7 m ρ c) (Proc.devRef .tc main_v69) = _
  after_results_simp <;> rfl

end AnyFloats

/-! ## At the extended reals: the regions' arrays are matrix products -/

section AtIdeal

variable (m : (ℓ : Loc nD τ sig) → Buf (Elt Ideal) ℓ) (ρ : Dev nD → PrngReg) (c : Dev nD)

/-- The first region's output is x · W1. -/
theorem W4_proj : W4 m ρ c (Proc.devRef .tc main_v35)
    = proj1 (F := Ideal) (m ((c : Thread nD τ).loc main_arg0)) (m ((c : Thread nD τ).loc main_arg2)) := by
  refine (W4_arr m ρ c 2).trans ?_
  rw [Blocks0.final (V3 m ρ) c]
  show matProd (W3 m ρ c (Proc.devRef .tc main_arg0)) (W3 m ρ c (Proc.devRef .tc main_arg2)) = _
  rw [W3_keep_arg0, W3_keep_arg2, WE_arg0, WE_arg2]
  exact (Cert.ReferenceIdeal.Proj.proj1_eq _ _).symm

/-- The second region's output is a · W2, a the first layer's output. -/
theorem W7_proj : W7 m ρ c (Proc.devRef .tc main_v53)
    = proj2 (F := Ideal) (W6 m ρ c (Proc.devRef .tc main_v52)) (W6 m ρ c (Proc.devRef .tc main_arg4)) := by
  refine (W7_arr m ρ c 2).trans ?_
  rw [Blocks1.final (V6 m ρ) c]
  exact (Cert.ReferenceIdeal.Proj.proj2_eq _ _).symm

/-- The result buffer at the last boundary is the network of the launch memory's six inputs. -/
theorem result_eq : W8 m ρ c (Proc.devRef .tc main_v69)
    = net (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W8_layer, W7_proj,
    W7_of_ne m ρ c main_v3 (by decide), W7_of_ne m ρ c main_v6 (by decide), W7_of_ne m ρ c main_v34 (by decide), W7_of_ne m ρ c main_arg5 (by decide),
    W6_layer, W6_keep_v3, W6_keep_v6, W6_keep_v34, W6_keep_arg4, W6_keep_arg5,
    W4_proj,
    W4_of_ne m ρ c main_v3 (by decide), W4_of_ne m ρ c main_v6 (by decide), W4_of_ne m ρ c main_v34 (by decide),
    W4_of_ne m ρ c main_arg3 (by decide), W4_of_ne m ρ c main_arg4 (by decide), W4_of_ne m ρ c main_arg5 (by decide),
    W3_norm, W3_keep_v3, W3_keep_v6, W3_keep_arg3, W3_keep_arg4, W3_keep_arg5,
    WE_src, WE_dst, WE_arg3, WE_arg4, WE_arg5]
  rfl

end AtIdeal

end Cert.KernelIdeal.Fold

end
-- ==== Proof.RefFold.lean ====
/-
  The reference program's run, read stretch by stretch. Its ninety host operations fall into six stretches: the edge
  columns with the self loops appended; the degrees, their inverse square roots and the edge weights; the first
  projection; the first layer's aggregation, bias and clamp; the second projection; the second layer's aggregation
  and bias. From ANY buffer contents each stretch leaves in its result buffer the stage it computes of the buffers it
  reads, and leaves every buffer it does not write as it was. Composed from the launch memory, the result buffer holds
  the network's value and the six arguments are unchanged.
-/
import proofs.«105747_j12189117186811_1_alg».proof.Proof.RefOps
import proofs.«105747_j12189117186811_1_alg».proof.Proof.RefStages
import Idealize.ShloMosaic.Lib.StableHlo.Run
import Idealize.ShloMosaic.Lib.Pipeline.Frame

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.ReferenceIdeal.Stages

variable {F : FTy → Type} [FloatOps F]

/-! ## The six stretches -/

/-- The edge columns: rows 0 and 1 of the edge list, each followed by the nodes 0 … 99999. -/
abbrev oEdge : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The degrees, their inverse square roots (0 at degree 0) and the edge weights. -/
abbrev oNorm : List (HloOp τ sig (Elt F)) :=
  [ nullary main_cst (constant S_ .f32 0x00000000#32),
    unary main_cst main_v7 (broadcastInDim S100000 ![] bcast_S_S100000 : (⟨S_, .f32⟩ : BufTy).Contents (Elt F) → (⟨S100000, .f32⟩ : BufTy).Contents (Elt F)),
    nullary main_c (constantI S_ 32 0#32),
    unary main_c main_v8 (broadcastInDim S1700000 ![] bcast_S_S1700000 : (⟨S_, .i32⟩ : BufTy).Contents (Elt F) → (⟨S1700000, .i32⟩ : BufTy).Contents (Elt F)),
    binary main_v6 main_v8 main_v9 (cmpi .slt : (⟨S1700000, .i32⟩ : BufTy).Contents (Elt F) → (⟨S1700000, .i32⟩ : BufTy).Contents (Elt F) → (⟨S1700000, .i1⟩ : BufTy).Contents (Elt F)),
    nullary main_c_0 (constantI S_ 32 100000#32),
    unary main_c_0 main_v10 (broadcastInDim S1700000 ![] bcast_S_S1700000 : (⟨S_, .i32⟩ : BufTy).Contents (Elt F) → (⟨S1700000, .i32⟩ : BufTy).Contents (Elt F)),
    binary main_v6 main_v10 main_v11 (addi : (⟨S1700000, .i32⟩ : BufTy).Contents (Elt F) → (⟨S1700000, .i32⟩ : BufTy).Contents (Elt F) → (⟨S1700000, .i32⟩ : BufTy).Contents (Elt F)),
    ternary main_v9 main_v11 main_v6 main_v12 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v12 main_v13 (broadcastInDim S1700000x1 ![0] bcast_S1700000_S1700000x1_0 : (⟨S1700000, .i32⟩ : BufTy).Contents (Elt F) → (⟨S1700000x1, .i32⟩ : BufTy).Contents (Elt F)),
    nullary main_cst_1 (constant S_ .f32 0x3F800000#32),
    unary main_cst_1 main_v14 (broadcastInDim S1700000 ![] bcast_S_S1700000 : (⟨S_, .f32⟩ : BufTy).Contents (Elt F) → (⟨S1700000, .f32⟩ : BufTy).Contents (Elt F)),
    ternary main_v7 main_v13 main_v14 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    unary main_v15 main_v18 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v17) (TRef.of (T := ⟨S100000, .f32⟩) main_v18) (TRef.of (T := ⟨S100000, .f32⟩) main_call0_v1) (TRef.of (T := ⟨S100000, .f32⟩) main_v19) select,
    nullary main_c_4 (constantI S_ 32 0#32),
    unary main_c_4 main_v20 (broadcastInDim S1700000 ![] bcast_S_S1700000 : (⟨S_, .i32⟩ : BufTy).Contents (Elt F) → (⟨S1700000, .i32⟩ : BufTy).Contents (Elt F)),
    binary main_v3 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v22 (broadcastInDim S1700000 ![] bcast_S_S1700000 : (⟨S_, .i32⟩ : BufTy).Contents (Elt F) → (⟨S1700000, .i32⟩ : BufTy).Contents (Elt F)),
    binary main_v3 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v3 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_6 (constantI S_ 32 0#32),
    unary main_c_6 main_v27 (broadcastInDim S1700000 ![] bcast_S_S1700000 : (⟨S_, .i32⟩ : BufTy).Contents (Elt F) → (⟨S1700000, .i32⟩ : BufTy).Contents (Elt F)),
    binary main_v6 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v29 (broadcastInDim S1700000 ![] bcast_S_S1700000 : (⟨S_, .i32⟩ : BufTy).Contents (Elt F) → (⟨S1700000, .i32⟩ : BufTy).Contents (Elt F)),
    binary main_v6 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v19 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v33 main_v34 (mulf : (⟨S1700000, .f32⟩ : BufTy).Contents (Elt F) → (⟨S1700000, .f32⟩ : BufTy).Contents (Elt F) → (⟨S1700000, .f32⟩ : BufTy).Contents (Elt F)) ]

/-- The first projection. -/
abbrev oDot1 : List (HloOp τ sig (Elt F)) :=
  [ binary main_arg0 main_arg2 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The first layer: gather, weigh, sum into the targets, add the bias, clamp. -/
abbrev oL1 : List (HloOp τ sig (Elt F)) :=
  [ nullary main_c_8 (constantI S_ 32 0#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v34 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf ]

/-- The second projection. -/
abbrev oDot2 : List (HloOp τ sig (Elt F)) :=
  [ binary main_v52 main_arg4 main_v53 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The second layer: gather, weigh, sum into the targets, add the bias. -/
abbrev oL2 : List (HloOp τ sig (Elt F)) :=
  [ nullary main_c_11 (constantI S_ 32 0#32),
    unary main_c_11 main_v54 (broadcastInDim S1700000 ![] bcast_S_S1700000 : (⟨S_, .i32⟩ : BufTy).Contents (Elt F) → (⟨S1700000, .i32⟩ : BufTy).Contents (Elt F)),
    binary main_v3 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v56 (broadcastInDim S1700000 ![] bcast_S_S1700000 : (⟨S_, .i32⟩ : BufTy).Contents (Elt F) → (⟨S1700000, .i32⟩ : BufTy).Contents (Elt F)),
    binary main_v3 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x64 ![0, 1] bcast_S1700000x1_S1700000x64_0_1 : (⟨S1700000x1, .f32⟩ : BufTy).Contents (Elt F) → (⟨S1700000x64, .f32⟩ : BufTy).Contents (Elt F)),
    binary main_v60 main_v62 main_v63 (mulf : (⟨S1700000x64, .f32⟩ : BufTy).Contents (Elt F) → (⟨S1700000x64, .f32⟩ : BufTy).Contents (Elt F) → (⟨S1700000x64, .f32⟩ : BufTy).Contents (Elt F)),
    nullary main_cst_13 (constant S_ .f32 0x00000000#32),
    unary main_cst_13 main_v64 (broadcastInDim S100000x64 ![] bcast_S_S100000x64 : (⟨S_, .f32⟩ : BufTy).Contents (Elt F) → (⟨S100000x64, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (addf : (⟨S100000x64, .f32⟩ : BufTy).Contents (Elt F) → (⟨S100000x64, .f32⟩ : BufTy).Contents (Elt F) → (⟨S100000x64, .f32⟩ : BufTy).Contents (Elt F)) ]

set_option maxHeartbeats 2000000 in
theorem ops_cut : (Cert.ReferenceIdeal.ValueP.ops : List (HloOp τ sig (Elt F))) = oEdge ++ (oNorm ++ (oDot1 ++ (oL1 ++ (oDot2 ++ oL2)))) := rfl

variable (V : Valuation τ sig (Elt F))

/-! ## What each stretch computes -/

theorem edge_src : after oEdge V (Proc.devRef .tc main_v3) = srcOf (F := F) (V (Proc.devRef .tc main_arg1)) := by after_results <;> rfl
theorem edge_dst : after oEdge V (Proc.devRef .tc main_v6) = dstOf (F := F) (V (Proc.devRef .tc main_arg1)) := by after_results <;> rfl

set_option maxHeartbeats 2000000 in
theorem norm_val : after oNorm V (Proc.devRef .tc main_v34) = normOf (F := F) (V (Proc.devRef .tc main_v3)) (V (Proc.devRef .tc main_v6)) := by
  after_results_simp <;> rfl

theorem dot1_val : after oDot1 V (Proc.devRef .tc main_v35) = proj1 (F := F) (V (Proc.devRef .tc main_arg0)) (V (Proc.devRef .tc main_arg2)) := by
  after_results_simp <;> rfl

set_option maxHeartbeats 2000000 in
theorem l1_val : after oL1 V (Proc.devRef .tc main_v52)
    = layer1 (F := F) (V (Proc.devRef .tc main_v35)) (V (Proc.devRef .tc main_v3)) (V (Proc.devRef .tc main_v6)) (V (Proc.devRef .tc main_v34)) (V (Proc.devRef .tc main_arg3)) := by
  after_results_simp <;> rfl

theorem dot2_val : after oDot2 V (Proc.devRef .tc main_v53) = proj2 (F := F) (V (Proc.devRef .tc main_v52)) (V (Proc.devRef .tc main_arg4)) := by
  after_results_simp <;> rfl

set_option maxHeartbeats 2000000 in
theorem l2_val : after oL2 V (Proc.devRef .tc main_v69)
    = layer2 (F := F) (V (Proc.devRef .tc main_v53)) (V (Proc.devRef .tc main_v3)) (V (Proc.devRef .tc main_v6)) (V (Proc.devRef .tc main_v34)) (V (Proc.devRef .tc main_arg5)) := by
  after_results_simp <;> rfl

/-! ## What each stretch leaves alone -/

theorem oEdge_keep_arg0 : after oEdge V (Proc.devRef .tc main_arg0) = V (Proc.devRef .tc main_arg0) := by after_results <;> rfl
theorem oEdge_keep_arg1 : after oEdge V (Proc.devRef .tc main_arg1) = V (Proc.devRef .tc main_arg1) := by after_results <;> rfl
theorem oEdge_keep_arg2 : after oEdge V (Proc.devRef .tc main_arg2) = V (Proc.devRef .tc main_arg2) := by after_results <;> rfl
theorem oEdge_keep_arg3 : after oEdge V (Proc.devRef .tc main_arg3) = V (Proc.devRef .tc main_arg3) := by after_results <;> rfl
theorem oEdge_keep_arg4 : after oEdge V (Proc.devRef .tc main_arg4) = V (Proc.devRef .tc main_arg4) := by after_results <;> rfl
theorem oEdge_keep_arg5 : after oEdge V (Proc.devRef .tc main_arg5) = V (Proc.devRef .tc main_arg5) := by after_results <;> rfl
theorem oNorm_keep_v3 : after oNorm V (Proc.devRef .tc main_v3) = V (Proc.devRef .tc main_v3) := by after_results_simp <;> rfl
theorem oNorm_keep_v6 : after oNorm V (Proc.devRef .tc main_v6) = V (Proc.devRef .tc main_v6) := by after_results_simp <;> rfl
theorem oNorm_keep_arg0 : after oNorm V (Proc.devRef .tc main_arg0) = V (Proc.devRef .tc main_arg0) := by after_results_simp <;> rfl
theorem oNorm_keep_arg1 : after oNorm V (Proc.devRef .tc main_arg1) = V (Proc.devRef .tc main_arg1) := by after_results_simp <;> rfl
theorem oNorm_keep_arg2 : after oNorm V (Proc.devRef .tc main_arg2) = V (Proc.devRef .tc main_arg2) := by after_results_simp <;> rfl
theorem oNorm_keep_arg3 : after oNorm V (Proc.devRef .tc main_arg3) = V (Proc.devRef .tc main_arg3) := by after_results_simp <;> rfl
theorem oNorm_keep_arg4 : after oNorm V (Proc.devRef .tc main_arg4) = V (Proc.devRef .tc main_arg4) := by after_results_simp <;> rfl
theorem oNorm_keep_arg5 : after oNorm V (Proc.devRef .tc main_arg5) = V (Proc.devRef .tc main_arg5) := by after_results_simp <;> rfl
theorem oDot1_keep_v3 : after oDot1 V (Proc.devRef .tc main_v3) = V (Proc.devRef .tc main_v3) := by after_results_simp <;> rfl
theorem oDot1_keep_v6 : after oDot1 V (Proc.devRef .tc main_v6) = V (Proc.devRef .tc main_v6) := by after_results_simp <;> rfl
theorem oDot1_keep_v34 : after oDot1 V (Proc.devRef .tc main_v34) = V (Proc.devRef .tc main_v34) := by after_results_simp <;> rfl
theorem oDot1_keep_arg0 : after oDot1 V (Proc.devRef .tc main_arg0) = V (Proc.devRef .tc main_arg0) := by after_results_simp <;> rfl
theorem oDot1_keep_arg1 : after oDot1 V (Proc.devRef .tc main_arg1) = V (Proc.devRef .tc main_arg1) := by after_results_simp <;> rfl
theorem oDot1_keep_arg2 : after oDot1 V (Proc.devRef .tc main_arg2) = V (Proc.devRef .tc main_arg2) := by after_results_simp <;> rfl
theorem oDot1_keep_arg3 : after oDot1 V (Proc.devRef .tc main_arg3) = V (Proc.devRef .tc main_arg3) := by after_results_simp <;> rfl
theorem oDot1_keep_arg4 : after oDot1 V (Proc.devRef .tc main_arg4) = V (Proc.devRef .tc main_arg4) := by after_results_simp <;> rfl
theorem oDot1_keep_arg5 : after oDot1 V (Proc.devRef .tc main_arg5) = V (Proc.devRef .tc main_arg5) := by after_results_simp <;> rfl
theorem oL1_keep_v3 : after oL1 V (Proc.devRef .tc main_v3) = V (Proc.devRef .tc main_v3) := by after_results_simp <;> rfl
theorem oL1_keep_v6 : after oL1 V (Proc.devRef .tc main_v6) = V (Proc.devRef .tc main_v6) := by after_results_simp <;> rfl
theorem oL1_keep_v34 : after oL1 V (Proc.devRef .tc main_v34) = V (Proc.devRef .tc main_v34) := by after_results_simp <;> rfl
theorem oL1_keep_arg0 : after oL1 V (Proc.devRef .tc main_arg0) = V (Proc.devRef .tc main_arg0) := by after_results_simp <;> rfl
theorem oL1_keep_arg1 : after oL1 V (Proc.devRef .tc main_arg1) = V (Proc.devRef .tc main_arg1) := by after_results_simp <;> rfl
theorem oL1_keep_arg2 : after oL1 V (Proc.devRef .tc main_arg2) = V (Proc.devRef .tc main_arg2) := by after_results_simp <;> rfl
theorem oL1_keep_arg3 : after oL1 V (Proc.devRef .tc main_arg3) = V (Proc.devRef .tc main_arg3) := by after_results_simp <;> rfl
theorem oL1_keep_arg4 : after oL1 V (Proc.devRef .tc main_arg4) = V (Proc.devRef .tc main_arg4) := by after_results_simp <;> rfl
theorem oL1_keep_arg5 : after oL1 V (Proc.devRef .tc main_arg5) = V (Proc.devRef .tc main_arg5) := by after_results_simp <;> rfl
theorem oDot2_keep_v3 : after oDot2 V (Proc.devRef .tc main_v3) = V (Proc.devRef .tc main_v3) := by after_results_simp <;> rfl
theorem oDot2_keep_v6 : after oDot2 V (Proc.devRef .tc main_v6) = V (Proc.devRef .tc main_v6) := by after_results_simp <;> rfl
theorem oDot2_keep_v34 : after oDot2 V (Proc.devRef .tc main_v34) = V (Proc.devRef .tc main_v34) := by after_results_simp <;> rfl
theorem oDot2_keep_arg0 : after oDot2 V (Proc.devRef .tc main_arg0) = V (Proc.devRef .tc main_arg0) := by after_results_simp <;> rfl
theorem oDot2_keep_arg1 : after oDot2 V (Proc.devRef .tc main_arg1) = V (Proc.devRef .tc main_arg1) := by after_results_simp <;> rfl
theorem oDot2_keep_arg2 : after oDot2 V (Proc.devRef .tc main_arg2) = V (Proc.devRef .tc main_arg2) := by after_results_simp <;> rfl
theorem oDot2_keep_arg3 : after oDot2 V (Proc.devRef .tc main_arg3) = V (Proc.devRef .tc main_arg3) := by after_results_simp <;> rfl
theorem oDot2_keep_arg4 : after oDot2 V (Proc.devRef .tc main_arg4) = V (Proc.devRef .tc main_arg4) := by after_results_simp <;> rfl
theorem oDot2_keep_arg5 : after oDot2 V (Proc.devRef .tc main_arg5) = V (Proc.devRef .tc main_arg5) := by after_results_simp <;> rfl
theorem oL2_keep_arg0 : after oL2 V (Proc.devRef .tc main_arg0) = V (Proc.devRef .tc main_arg0) := by after_results_simp <;> rfl
theorem oL2_keep_arg1 : after oL2 V (Proc.devRef .tc main_arg1) = V (Proc.devRef .tc main_arg1) := by after_results_simp <;> rfl
theorem oL2_keep_arg2 : after oL2 V (Proc.devRef .tc main_arg2) = V (Proc.devRef .tc main_arg2) := by after_results_simp <;> rfl
theorem oL2_keep_arg3 : after oL2 V (Proc.devRef .tc main_arg3) = V (Proc.devRef .tc main_arg3) := by after_results_simp <;> rfl
theorem oL2_keep_arg4 : after oL2 V (Proc.devRef .tc main_arg4) = V (Proc.devRef .tc main_arg4) := by after_results_simp <;> rfl
theorem oL2_keep_arg5 : after oL2 V (Proc.devRef .tc main_arg5) = V (Proc.devRef .tc main_arg5) := by after_results_simp <;> rfl

/-! ## The whole run -/

/-- The result buffer after the ninety operations is the network of the six argument buffers. -/
theorem value : after (Cert.ReferenceIdeal.ValueP.ops (F := F)) V (Proc.devRef .tc main_v69)
    = net (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_cut]
  simp only [StableHlo.after_append]
  rw [l2_val, dot2_val, oDot2_keep_v3, oDot2_keep_v6, oDot2_keep_v34, oDot2_keep_arg5,
    l1_val, oL1_keep_arg4, oL1_keep_v3, oL1_keep_v6, oL1_keep_v34, oL1_keep_arg5,
    dot1_val, oDot1_keep_v3, oDot1_keep_v6, oDot1_keep_v34, oDot1_keep_arg3, oDot1_keep_arg4, oDot1_keep_arg5,
    norm_val, oNorm_keep_v3, oNorm_keep_v6, oNorm_keep_arg0, oNorm_keep_arg2, oNorm_keep_arg3, oNorm_keep_arg4, oNorm_keep_arg5,
    edge_src, edge_dst, oEdge_keep_arg0, oEdge_keep_arg2, oEdge_keep_arg3, oEdge_keep_arg4, oEdge_keep_arg5]
  rfl

theorem kept_arg0 : after (Cert.ReferenceIdeal.ValueP.ops (F := F)) V (Proc.devRef .tc main_arg0) = V (Proc.devRef .tc main_arg0) := by
  rw [ops_cut]
  simp only [StableHlo.after_append]
  rw [oL2_keep_arg0, oDot2_keep_arg0, oL1_keep_arg0, oDot1_keep_arg0, oNorm_keep_arg0, oEdge_keep_arg0]
theorem kept_arg1 : after (Cert.ReferenceIdeal.ValueP.ops (F := F)) V (Proc.devRef .tc main_arg1) = V (Proc.devRef .tc main_arg1) := by
  rw [ops_cut]
  simp only [StableHlo.after_append]
  rw [oL2_keep_arg1, oDot2_keep_arg1, oL1_keep_arg1, oDot1_keep_arg1, oNorm_keep_arg1, oEdge_keep_arg1]
theorem kept_arg2 : after (Cert.ReferenceIdeal.ValueP.ops (F := F)) V (Proc.devRef .tc main_arg2) = V (Proc.devRef .tc main_arg2) := by
  rw [ops_cut]
  simp only [StableHlo.after_append]
  rw [oL2_keep_arg2, oDot2_keep_arg2, oL1_keep_arg2, oDot1_keep_arg2, oNorm_keep_arg2, oEdge_keep_arg2]
theorem kept_arg3 : after (Cert.ReferenceIdeal.ValueP.ops (F := F)) V (Proc.devRef .tc main_arg3) = V (Proc.devRef .tc main_arg3) := by
  rw [ops_cut]
  simp only [StableHlo.after_append]
  rw [oL2_keep_arg3, oDot2_keep_arg3, oL1_keep_arg3, oDot1_keep_arg3, oNorm_keep_arg3, oEdge_keep_arg3]
theorem kept_arg4 : after (Cert.ReferenceIdeal.ValueP.ops (F := F)) V (Proc.devRef .tc main_arg4) = V (Proc.devRef .tc main_arg4) := by
  rw [ops_cut]
  simp only [StableHlo.after_append]
  rw [oL2_keep_arg4, oDot2_keep_arg4, oL1_keep_arg4, oDot1_keep_arg4, oNorm_keep_arg4, oEdge_keep_arg4]
theorem kept_arg5 : after (Cert.ReferenceIdeal.ValueP.ops (F := F)) V (Proc.devRef .tc main_arg5) = V (Proc.devRef .tc main_arg5) := by
  rw [ops_cut]
  simp only [StableHlo.after_append]
  rw [oL2_keep_arg5, oDot2_keep_arg5, oL1_keep_arg5, oDot1_keep_arg5, oNorm_keep_arg5, oEdge_keep_arg5]

/-- Every weakly fair execution of the reference terminates with the result at the network of its arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
        = net (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v69).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.Fold

end
-- ==== Proof.lean ====
/-
  The certificate of a two-layer graph convolution network whose two dense projections run as tiled kernels.

  Both programs compute, from x, the edge list, W1, b1, W2, b2:
      src, dst  = the edge list's two rows with the self loops appended,
      norm      = d(src)^(-1/2) · d(dst)^(-1/2)   (d the degree with self loops; 0 where the degree is 0),
      a         = max(0, Σ_{e : dst e = i} (x · W1)[src e] · norm e + b1),
      out       = Σ_{e : dst e = i} (a · W2)[src e] · norm e + b2,
  with the same host operations around the two matrix products. The reference takes each product whole; the kernel
  takes it twenty row blocks at a time, each block's operands passed through bf16 (the identity on the extended reals)
  and accumulated from zero. A row block of a product is the product of the row block, so at the extended reals the
  two programs are one function of their inputs (no finiteness is needed: only the definition of the product is used).
-/
import proofs.«105747_j12189117186811_1_alg».proof.Defs
import proofs.«105747_j12189117186811_1_alg».proof.Proof.Gen.Kernel
import proofs.«105747_j12189117186811_1_alg».proof.Proof.Gen.Kernel.Skeleton
import proofs.«105747_j12189117186811_1_alg».proof.Proof.Gen.Kernel.Launch
import proofs.«105747_j12189117186811_1_alg».proof.Proof.Gen.Kernel.Points
import proofs.«105747_j12189117186811_1_alg».proof.Proof.Gen.Kernel.Frame
import proofs.«105747_j12189117186811_1_alg».proof.Proof.Gen.KernelIdeal
import proofs.«105747_j12189117186811_1_alg».proof.Proof.Gen.KernelIdeal.Skeleton
import proofs.«105747_j12189117186811_1_alg».proof.Proof.Gen.KernelIdeal.Launch
import proofs.«105747_j12189117186811_1_alg».proof.Proof.Gen.KernelIdeal.Points
import proofs.«105747_j12189117186811_1_alg».proof.Proof.Gen.KernelIdeal.Frame
import proofs.«105747_j12189117186811_1_alg».proof.Proof.Gen.ReferenceIdeal
import proofs.«105747_j12189117186811_1_alg».proof.Proof.Gen.Pre_finite_inputs
import proofs.«105747_j12189117186811_1_alg».proof.Proof.KernelRun
import proofs.«105747_j12189117186811_1_alg».proof.Proof.KernelFold
import proofs.«105747_j12189117186811_1_alg».proof.Proof.RefFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Fold.run (F := Ideal) m ρ)

/-- Both runs end with the result at the network of the inputs, and the inputs agree. -/
theorem algebraic : Cert.algebraic_KernelIdeal_ReferenceIdeal := by
  intro m ρ m' ρ' _ hagree
  refine ⟨fun c => Cert.ReferenceIdeal.Stages.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Fold.run (F := Ideal) m' ρ')
    rw [(hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
